-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S8192x256 : Shape := ⟨2, ![8192, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S16384x256 .f32) (main_arg1 : FVec F S8192x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S16384x256 : Shape := ⟨2, ![16384, 256]⟩
abbrev S8192x256 : Shape := ⟨2, ![8192, 256]⟩
abbrev S256x8192 : Shape := ⟨2, ![256, 8192]⟩
abbrev S16384x8192 : Shape := ⟨2, ![16384, 8192]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S256x8192, .f32⟩
  | .hbm, ⟨3, _⟩ => ⟨S16384x8192, .f32⟩
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S256x1024, .f32⟩
  | .local _ .vmem, ⟨4, _⟩ => ⟨S1024x1024, .f32⟩
  | .local _ .vmem, ⟨5, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S8192x256_S256x8192_1_0 : S8192x256.Transposes [1, 0] S256x8192
  inb_S1024x256_S1024x256_0_0 : ∀ a, (![0, 0] : Fin 2 → Nat) a + S1024x256.size a ≤ S1024x256.size a
  h_S1024x256 : 0 < S1024x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S1024x256_S1024 : S1024x256.Reduces [1] S1024
  shapeCasts_S1024_S1024x1 : S1024.ShapeCasts S1024x1
  reduces_S256x1024_S1024 : S256x1024.Reduces [0] S1024
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x8192.size a
  hwx0_1 : ∀ i : grid0.Coords, EltTy.bits .f32 = 32 ∨ (Rect.block (s := S256x8192) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x8192.size a
  hwx0_2 : ∀ i : grid0.Coords, EltTy.bits .f32 = 32 ∨ (Rect.block (s := S16384x8192) S1024x1024.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S8192x256 : Shape := ⟨2, ![8192, 256]⟩
abbrev S_ : Shape := ⟨0, ![]⟩
abbrev S16384 : Shape := ⟨1, ![16384]⟩
abbrev S16384x1 : Shape := ⟨2, ![16384, 1]⟩
abbrev S8192 : Shape := ⟨1, ![8192]⟩
abbrev S16384x8192 : Shape := ⟨2, ![16384, 8192]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S16384x8192, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S_, .f32⟩
  | .hbm, ⟨15, _⟩ => ⟨S16384x8192, .f32⟩
  | .hbm, ⟨16, _⟩ => ⟨S16384x8192, .f32⟩
  | .hbm, ⟨17, _⟩ => ⟨S16384x8192, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S8192x256_S8192_d1 : S8192x256.ReducesTo [1] S8192
  bcast_S8192_S1x8192_1 : S8192.BroadcastsInDim S1x8192 (![1] : Fin 1 → Fin S1x8192.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  bcast_S_S16384x8192 : S_.BroadcastsInDim S16384x8192 (![] : Fin 0 → Fin S16384x8192.rank)
  dot_S16384x256_S8192x256_S16384x8192_1_1_0_0_n_n_wf : DotDims.WF S16384x256 S8192x256 S16384x8192 [1] [1] [0] [0] [] []

variable [Facts₀]

def dot_S16384x256_S8192x256_S16384x8192_1_1_0_0_n_n : DotDims S16384x256 S8192x256 S16384x8192 where
  lhsContracting := [1]
  rhsContracting := [1]
  lhsNonContracting := [0]
  rhsNonContracting := [0]
  lhsBatch := []
  rhsBatch := []
  wf := dot_S16384x256_S8192x256_S16384x8192_1_1_0_0_n_n_wf

class Facts : Prop extends Facts₀ where

variable [Facts]
-- ==== Proof.LibKeepdims.lean ====
/- A vector viewed as a one-column array, and a sum over a rank-1 index set: the two index facts a row reduction kept as a
   column (`sum(axis=1, keepdims=True)`) meets. -/
import Idealize.ShloMosaic.Lib.Pipeline.Value
import Idealize.ShloMosaic.Lib.ValueIdx

open Idealize.ShloMosaic Idealize.ShloMosaic.ValueIdx
open scoped BigOperators

namespace Idealize.ShloMosaic.Keepdims

/-- A length-`a` vector viewed as an [a, 1] column reads, at (p, q), the vector at p: both have row-major position p. -/
theorem shapeCast_a_a1_apply {α : Type} {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- An [a, 1] column viewed as a length-`a` vector reads, at p, the column at (p, 0). -/
theorem shapeCast_a1_a_apply {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A sum over a rank-1 index set is the sum over its coordinate. -/
theorem sum_idx1 {M : Type*} [AddCommMonoid M] {n : ℕ} (f : (⟨1, ![n]⟩ : Shape).Idx → M) : ∑ i, f i = ∑ a : Fin n, f (ix1 a) :=
  Fintype.sum_equiv ⟨fun i => i 0, fun a => ix1 a, fun i => (eq_ix1 i).symm, fun _ => rfl⟩ f (fun a => f (ix1 a))
    (fun i => congrArg f (eq_ix1 i))

end Idealize.ShloMosaic.Keepdims
-- ==== Proof.LibColBroadcast.lean ====
/- One column broadcast over many: the index fact a kept row reduction (`sum(axis=1, keepdims=True)`) meets when it is
   spread back over the columns of a matrix. -/
import Idealize.ShloMosaic.Lib.Pipeline.Value
import Idealize.ShloMosaic.Lib.ValueIdx

open Idealize.ShloMosaic Idealize.ShloMosaic.ValueIdx

namespace Idealize.ShloMosaic.ColBroadcast

/-- An `[a, 1]` column broadcast to `[a, b]` reads, at `(p, c)`, the column at row `p`, whatever the column index `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColBroadcast
-- ==== Proof.SqDist.lean ====
/- The function both programs compute: the matrix of squared Euclidean distances between the rows of two matrices, in the
   expanded form  ‖a n‖² + ‖b m‖² − 2 · ⟨a n, b m⟩  over the extended reals, entry by entry. -/
import Idealize.ShloMosaic.PureOps.Ideal
import Idealize.ShloMosaic.Lib.ValueIdx

noncomputable section

open Idealize.ShloMosaic Idealize.ShloMosaic.ValueIdx
open scoped BigOperators

namespace Cert.SqDist

/-- Entry `(n, m)`: the squared length of row `n` of `a`, plus the squared length of row `m` of `b`, minus twice their
    inner product; each of the three a sum over the 256 shared columns, the factor two the float literal's value. -/
def entry (a : (⟨2, ![16384, 256]⟩ : Shape).Idx → EReal) (b : (⟨2, ![8192, 256]⟩ : Shape).Idx → EReal)
    (n : Fin 16384) (m : Fin 8192) : EReal :=
  (∑ k : Fin 256, a (ix2 n k) * a (ix2 n k) + ∑ k : Fin 256, b (ix2 m k) * b (ix2 m k))
    - Ideal.ofBits .f32 0x40000000#32 * ∑ k : Fin 256, a (ix2 n k) * b (ix2 m k)

/-- The whole distance matrix, indexed as a `[16384, 8192]` array. -/
def dist (a : (⟨2, ![16384, 256]⟩ : Shape).Idx → EReal) (b : (⟨2, ![8192, 256]⟩ : Shape).Idx → EReal) :
    (⟨2, ![16384, 8192]⟩ : Shape).Idx → EReal :=
  fun i => entry a b (i 0) (i 1)

theorem dist_apply (a : (⟨2, ![16384, 256]⟩ : Shape).Idx → EReal) (b : (⟨2, ![8192, 256]⟩ : Shape).Idx → EReal)
    (n : Fin 16384) (m : Fin 8192) : dist a b (ix2 n m) = entry a b n m := rfl

end Cert.SqDist

end
-- ==== Proof.Body.lean ====
/- One block of the kernel, entry by entry: from a [1024, 256] block `x0` of the first matrix and a [256, 1024] block `x1` of
   the transposed second matrix the body stores, at (p, q), the squared length of row p of `x0` plus the squared length of
   column q of `x1` minus twice their inner product. -/
import proofs.«145849_j1580547968539_1_alg».proof.Proof.Gen.KernelIdeal.Skeleton
import proofs.«145849_j1580547968539_1_alg».proof.Proof.LibKeepdims
import proofs.«145849_j1580547968539_1_alg».proof.Proof.LibColBroadcast
import proofs.«145849_j1580547968539_1_alg».proof.Proof.SqDist
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx Idealize.ShloMosaic.Keepdims Idealize.ShloMosaic.ColBroadcast
open scoped BigOperators

namespace Cert.KernelIdeal.Body

open Cert.KernelIdeal Cert.KernelIdeal.Gen

/-- A sum along the columns of a [1024, 256] block, read at row p. -/
theorem rowSum_apply (v : FVec Ideal S1024x256 .f32) (hφ : FKind.Formats .f32)
    (hacc : (0x00000000#32 : BitVec 32) = FKind.add.neutral .f32 hφ) (p : Fin 1024) :
    multiReduction .add [1] S1024 v 0x00000000#32 reduces_S1024x256_S1024 hφ hacc (ix1 p) = ∑ k : Fin 256, v (ix2 p k) := by
  refine (Ideal.multiReduction_add_single v _ reduces_S1024x256_S1024 hφ hacc (ix1 p)).trans ?_
  refine Finset.sum_congr rfl fun k _ => congrArg v (funext fun a => Fin.ext ?_)
  match a with
  | ⟨0, _⟩ => rfl
  | ⟨1, _⟩ => rfl

/-- A sum along the rows of a [256, 1024] block, read at column q. -/
theorem colSum_apply (v : FVec Ideal S256x1024 .f32) (hφ : FKind.Formats .f32)
    (hacc : (0x00000000#32 : BitVec 32) = FKind.add.neutral .f32 hφ) (q : Fin 1024) :
    multiReduction .add [0] S1024 v 0x00000000#32 reduces_S256x1024_S1024 hφ hacc (ix1 q) = ∑ k : Fin 256, v (ix2 k q) := by
  refine (Ideal.multiReduction_add_single v _ reduces_S256x1024_S1024 hφ hacc (ix1 q)).trans ?_
  refine Finset.sum_congr rfl fun k _ => congrArg v (funext fun a => Fin.ext ?_)
  match a with
  | ⟨0, _⟩ => rfl
  | ⟨1, _⟩ => rfl

/-! ## The block product: the operand indices of the contraction, axis by axis -/

theorem lhs_dot_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_dot_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_dot_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_dot_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of the two blocks into a zero accumulator, read at (p, q): the inner product of row p of the first with
    column q of the second. -/
theorem dot_apply (l : FVec Ideal S1024x256 .bf16) (r : FVec Ideal S256x1024 .bf16) (p q : Fin 1024) :
    matmul dot_S1024x256_S256x1024_S1024x1024_1_0_0_1_n_n none l r (constant S1024x1024 .f32 0x00000000#32) (ix2 p q)
      = ∑ k : Fin 256, l (ix2 p k) * r (ix2 k q) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S256x1024_S1024x1024_1_0_0_1_n_n.rhsIdx (ix2 p q) ((ValueIdx.contrEquiv1 dot_S1024x256_S256x1024_S1024x1024_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-! ## The stored value at (p, q) -/

/-- What the body stores at (p, q) of the output block. -/
theorem pay_apply (x0 : Vec Ideal S1024x256 .f32) (x1 : Vec Ideal S256x1024 .f32) (p q : Fin 1024) :
    k0_pay1 (F := Ideal) x0 x1 (ix2 p q)
      = (∑ k : Fin 256, x0 (ix2 p k) * x0 (ix2 p k) + ∑ k : Fin 256, x1 (ix2 k q) * x1 (ix2 k q))
        - Ideal.ofBits .f32 0x40000000#32 * ∑ k : Fin 256, x0 (ix2 p k) * x1 (ix2 k q) := by
  unfold k0_pay1
  dsimp only
  simp only [shapeCast_self, subf_apply, addf_apply, mulf_apply, broadcast_apply, broadcastTo_a1_ab_apply,
    broadcastTo_1b_ab_apply, shapeCast_a_a1_apply, shapeCast_a_1a_apply, rowSum_apply, colSum_apply, dot_apply,
    truncf_apply]
  refine congrArg₂ (· - ·) (congrArg₂ (· + ·) ((rowSum_apply (mulf x0 x0) _ _ p).trans ?_)
    ((colSum_apply (mulf x1 x1) _ _ q).trans ?_)) rfl
  · rfl
  · rfl

/-- So a block whose rows are row `n` … of `A` and whose second operand's columns are rows `m'` … of `B` stores, at (p, q),
    entry (n, m') of the distance matrix of `A` and `B`. -/
theorem block_entry (A : (⟨2, ![16384, 256]⟩ : Shape).Idx → EReal) (B : (⟨2, ![8192, 256]⟩ : Shape).Idx → EReal)
    (x0 : Vec Ideal S1024x256 .f32) (x1 : Vec Ideal S256x1024 .f32) (n : Fin 16384) (m' : Fin 8192) (p q : Fin 1024)
    (h0 : ∀ k : Fin 256, x0 (ix2 p k) = A (ix2 n k)) (h1 : ∀ k : Fin 256, x1 (ix2 k q) = B (ix2 m' k)) :
    k0_pay1 (F := Ideal) x0 x1 (ix2 p q) = Cert.SqDist.entry A B n m' := by
  refine (pay_apply x0 x1 p q).trans ?_
  unfold Cert.SqDist.entry
  simp only [h0, h1]

end Cert.KernelIdeal.Body

end
-- ==== Proof.Blocks.lean ====
/- From blocks to the array: grid point (i, j) reads rows 1024·i … of the first matrix and columns 1024·j … of the transposed
   second matrix (rows 1024·j … of the second matrix itself), and writes back block (i, j) of the distance matrix; the 16 × 8
   blocks cover the output, so after the run the output array is the distance matrix of the two arguments. -/
import proofs.«145849_j1580547968539_1_alg».proof.Proof.Gen.KernelIdeal.Value
import proofs.«145849_j1580547968539_1_alg».proof.Proof.Body
import proofs.«145849_j1580547968539_1_alg».proof.Proof.SqDist
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The two argument matrices as launched, and the transposed second matrix as the region finds it. -/
abbrev argA (c : Dev nD) : (⟨2, ![16384, 256]⟩ : Shape).Idx → EReal := m ((c : Thread nD τ).loc main_arg0)
abbrev argB (c : Dev nD) : (⟨2, ![8192, 256]⟩ : Shape).Idx → EReal := m ((c : Thread nD τ).loc main_arg1)

/-- The host transposes the second matrix before the region. -/
theorem V_main_v0 (c : Dev nD) :
    (V m c main_v0 : S256x8192.Idx → EReal) = transpose S256x8192 [1, 0] (argB m c) transposes_S8192x256_S256x8192_1_0 := by
  dsimp only [Gen.V, Gen.hostOps0]
  after_results

/-- The two input blocks at a point, at their literal types. -/
abbrev xb0 (c : Dev nD) (t : Fin cfg0.N) : Vec Ideal S1024x256 .f32 := iblk m c 0 t
abbrev xb1 (c : Dev nD) (t : Fin cfg0.N) : Vec Ideal S256x1024 .f32 := iblk m c 1 t

/-- The printed index maps over the grid: the first input moves with the output's row block and stays on column block 0; the
    second stays on row block 0 and moves with the output's column block; the output's block indices stay in range. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 15 ∧ win0_2.index t (1 : Fin 2) ≤ 7 :=
  (by decide +kernel : ∀ t : Fin grid0.N, _)

/-- Every block of the output is some point's. -/
theorem idx_onto : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-- The first input's block at point `t`, at (p, k), is the first matrix at row `1024 · (row block) + p`, column k. -/
theorem xb0_apply (c : Dev nD) (t : Fin cfg0.N) (x : S1024x256.Idx) (i : S16384x256.Idx)
    (h0 : (i 0).val = win0_2.index t (0 : Fin 2) * 1024 + (x 0).val) (h1 : (i 1).val = (x 1).val) :
    xb0 m c t x = argA m c i := by
  obtain ⟨e0, e1, -, -, -, -⟩ := idx_facts t
  unfold xb0 iblk
  rw [View.read_apply]
  show V m c main_arg0 _ = _
  rw [V_main_arg0]
  refine congrArg _ (funext fun a => Fin.ext ?_)
  match a with
  | ⟨0, _⟩ => show win0_0.index t (0 : Fin 2) * 1024 + 1 * (x 0).val = (i 0).val; omega
  | ⟨1, _⟩ => show win0_0.index t (1 : Fin 2) * 256 + 1 * (x 1).val = (i 1).val; omega

/-- The second input's block at point `t`, at (k, q), is the second matrix at row `1024 · (column block) + q`, column k. -/
theorem xb1_apply (c : Dev nD) (t : Fin cfg0.N) (k : Fin 256) (q : Fin 1024) (r : Fin 8192)
    (hr : r.val = win0_2.index t (1 : Fin 2) * 1024 + q.val) :
    xb1 m c t (ix2 k q) = argB m c (ix2 r k) := by
  obtain ⟨-, -, e2, e3, -, -⟩ := idx_facts t
  unfold xb1 iblk
  rw [View.read_apply]
  show V m c main_v0 _ = _
  rw [V_main_v0]
  refine (congrArg _ (?_ : _ = ix2 k r)).trans (transpose_ix2_apply (argB m c) transposes_S8192x256_S256x8192_1_0 k r)
  refine funext fun a => Fin.ext ?_
  match a with
  | ⟨0, _⟩ => show win0_1.index t (0 : Fin 2) * 256 + 1 * k.val = k.val; omega
  | ⟨1, _⟩ => show win0_1.index t (1 : Fin 2) * 1024 + 1 * q.val = r.val; omega

/-- The output's block at point `t` sits at rows `1024 · (row block) + p`, columns `1024 · (column block) + q`. -/
theorem out_emb (t : Fin cfg0.N) (p q : Fin 1024) (n : Fin 16384) (r : Fin 8192)
    (hn : n.val = win0_2.index t (0 : Fin 2) * 1024 + p.val) (hr : r.val = win0_2.index t (1 : Fin 2) * 1024 + q.val) :
    ((cfg0.win 2).blk t).view.emb (ix2 p q) = ix2 n r := by
  refine funext fun a => Fin.ext ?_
  match a with
  | ⟨0, _⟩ => show win0_2.index t (0 : Fin 2) * 1024 + 1 * p.val = n.val; omega
  | ⟨1, _⟩ => show win0_2.index t (1 : Fin 2) * 1024 + 1 * q.val = r.val; omega

/-- WHAT POINT `t` WRITES BACK is block `t` of the distance matrix of the two arguments. -/
theorem flushed_eq (c : Dev nD) (t : Fin cfg0.N) :
    (dats m 0 c).flushed 2 t = ((cfg0.win 2).blk t).view.read (Elt Ideal) (Cert.SqDist.dist (argA m c) (argB m c)) := by
  rw [Value.flushed2]
  unfold out0_2
  rw [View.canon_unit_zero hz]
  simp only [View.ld_unit_zero (S := S1024x256) hz, View.ld_unit_zero (S := S256x1024) hz]
  funext j
  obtain ⟨p, q, rfl⟩ : ∃ (p q : Fin 1024), j = ix2 p q := ⟨j 0, j 1, eq_ix2 j⟩
  obtain ⟨-, -, -, -, b0, b1⟩ := idx_facts t
  obtain ⟨n, hn⟩ : ∃ n : Fin 16384, n.val = win0_2.index t (0 : Fin 2) * 1024 + p.val :=
    ⟨⟨_, by have := p.isLt; omega⟩, rfl⟩
  obtain ⟨r, hr⟩ : ∃ r : Fin 8192, r.val = win0_2.index t (1 : Fin 2) * 1024 + q.val :=
    ⟨⟨_, by have := q.isLt; omega⟩, rfl⟩
  show k0_pay1 (F := Ideal) (xb0 m c t) (xb1 m c t) (ix2 p q) = _
  rw [View.read_apply]
  show _ = Cert.SqDist.dist (argA m c) (argB m c) (((cfg0.win 2).blk t).view.emb (ix2 p q))
  rw [out_emb t p q n r hn hr, Cert.SqDist.dist_apply]
  exact Body.block_entry (argA m c) (argB m c) (xb0 m c t) (xb1 m c t) n r p q
    (fun k => xb0_apply m c t (ix2 p k) (ix2 n k) hn rfl) (fun k => xb1_apply m c t k q r hr)

/-- An index of the output is in point `t`'s block iff each coordinate is in the block's range on its axis. -/
theorem mem_blk (t : Fin cfg0.N) (i : S16384x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every entry of the output lies in the block of the point whose block indices are its coordinates over 1024. -/
theorem cover (i : S16384x8192.Idx) : ∃ t : Fin cfg0.N, (cfg0.win 2).flush t = true ∧ i ∈ ((cfg0.win 2).blk t).view.set := by
  have hi0 : (i 0).val < 16384 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE ARRAY after the run is the distance matrix of the two arguments. -/
theorem final (c : Dev nD) : (dats m 0 c).arrAt 2 cfg0.N = Cert.SqDist.dist (argA m c) (argB m c) :=
  (dats m 0 c).arrAt_eq_of_cover 2 (Cert.SqDist.dist (argA m c) (argB m c)) (fun t _ => flushed_eq m c t) cover

/-- The kernel's run, read: the result array at the distance matrix of the arguments, the arguments unchanged. -/
theorem run : θ_run defs (onTc (τ := τ) (main (F := Ideal))) ⟨m, fun _ => 0, ρ⟩ fun r => ∀ c : Dev nD,
      r.2.mem ((c : Thread nD τ).loc main_v1) = Cert.SqDist.dist (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.RefDist.lean ====
/- The reference program's result is the distance matrix: read one operation at a time, its entry (n, m) is the sum of the
   squares of row n of the first matrix (from zero), plus that of row m of the second, minus two times the contraction of
   the two rows over their shared axis. -/
import proofs.«145849_j1580547968539_1_alg».proof.Proof.Gen.ReferenceIdeal.Read
import proofs.«145849_j1580547968539_1_alg».proof.Proof.SqDist
import Idealize.ShloMosaic.Lib.ValueIdx
import Idealize.ShloMosaic.PureOps.Ideal.Laws

noncomputable section

open Idealize.ShloMosaic Idealize.ShloMosaic.ValueIdx
open scoped BigOperators

namespace Cert.ReferenceIdeal.Dist

open Cert.ReferenceIdeal Cert.ReferenceIdeal.Read

/-! The operand indices the stages read at entry (n, m), as rows n and m. -/

theorem row_of_sq1 (n : Fin 16384) (m : Fin 8192) (k : Fin 256) :
    idx_main_v1 (idx_main_v2 (idx_main_v7 (ix2 n m))) k = ix2 n k :=
  funext fun a => Fin.ext (by match a with | ⟨0, _⟩ => rfl | ⟨1, _⟩ => rfl)
theorem row_of_sq2 (n : Fin 16384) (m : Fin 8192) (k : Fin 256) :
    idx_main_v4 (idx_main_v6 (idx_main_v8 (ix2 n m))) k = ix2 m k :=
  funext fun a => Fin.ext (by match a with | ⟨0, _⟩ => rfl | ⟨1, _⟩ => rfl)
theorem row_of_lhs (n : Fin 16384) (m : Fin 8192) (k : Fin 256) : lidx_main_v5 (ix2 n m) k = ix2 n k :=
  funext fun a => Fin.ext (by match a with | ⟨0, _⟩ => rfl | ⟨1, _⟩ => rfl)
theorem row_of_rhs (n : Fin 16384) (m : Fin 8192) (k : Fin 256) : ridx_main_v5 (ix2 n m) k = ix2 m k :=
  funext fun a => Fin.ext (by match a with | ⟨0, _⟩ => rfl | ⟨1, _⟩ => rfl)

/-- The last stage of the reference is the distance matrix of its two arguments. -/
theorem result_eq (a : (⟨S16384x256, .f32⟩ : BufTy).Contents (Elt Ideal)) (b : (⟨S8192x256, .f32⟩ : BufTy).Contents (Elt Ideal)) :
    val_main_v12 (F := Ideal) a b = Cert.SqDist.dist a b := by
  funext i
  obtain ⟨n, m, rfl⟩ : ∃ (n : Fin 16384) (m : Fin 8192), i = ix2 n m := ⟨i 0, i 1, eq_ix2 i⟩
  rw [Cert.SqDist.dist_apply]
  rw [val_main_v12_apply, val_main_v9_apply, val_main_v7_apply, val_main_v2_apply, val_main_v1_apply, val_main_v8_apply,
    val_main_v6_apply, val_main_v4_apply, val_main_v11_apply, val_main_v10_apply, val_main_v5_apply]
  simp only [val_main_v0_apply, val_main_v3_apply, val_main_cst_apply, val_main_cst_0_apply, val_main_cst_1_apply,
    row_of_sq1, row_of_sq2, row_of_lhs, row_of_rhs, Ideal.ofBits_def, Ideal.addf_def, Ideal.subf_def, Ideal.mulf_def,
    Ideal.ofBits_zero_f32, zero_add]
  rfl

end Cert.ReferenceIdeal.Dist

end
-- ==== Proof.lean ====
/- The squared-distance kernel against its reference, over the extended reals.

   Both programs compute, at entry (n, m) of a [16384, 8192] array,
       ‖a n‖² + ‖b m‖² − 2 · ⟨a n, b m⟩
   for the rows a n of the first argument and b m of the second: the sums of squares from zero, the inner product a sum over
   the 256 shared columns, the factor two the same float literal on both sides, the operations in the same order. The kernel
   tiles the output in 16 × 8 blocks of 1024 × 1024, reads the second argument transposed (by the host) so that a block's
   column q is row 1024·j + q of the second argument, sums that block's squares down its columns, and rounds both operands
   of the block product to bf16 — the identity on extended reals. No algebraic law beyond reading each operation at an index
   joins the two sides, so the precondition is never opened.

   SqDist: the function. Body: one block, entry by entry. Blocks: the blocks cover the array. RefDist: the reference, one
   operation at a time. Here: the five claims. -/
import proofs.«145849_j1580547968539_1_alg».proof.Defs
import proofs.«145849_j1580547968539_1_alg».proof.Proof.Gen.Kernel
import proofs.«145849_j1580547968539_1_alg».proof.Proof.Gen.Kernel.Frame
import proofs.«145849_j1580547968539_1_alg».proof.Proof.Gen.KernelIdeal
import proofs.«145849_j1580547968539_1_alg».proof.Proof.Gen.KernelIdeal.Frame
import proofs.«145849_j1580547968539_1_alg».proof.Proof.Gen.KernelIdeal.Value
import proofs.«145849_j1580547968539_1_alg».proof.Proof.Gen.ReferenceIdeal
import proofs.«145849_j1580547968539_1_alg».proof.Proof.Gen.ReferenceIdeal.Run
import proofs.«145849_j1580547968539_1_alg».proof.Proof.Gen.ReferenceIdeal.Read
import proofs.«145849_j1580547968539_1_alg».proof.Proof.Gen.Pre_finite_inputs
import proofs.«145849_j1580547968539_1_alg».proof.Proof.Blocks
import proofs.«145849_j1580547968539_1_alg».proof.Proof.RefDist
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the distance matrix of the
    arguments. -/
theorem algebraic : Cert.algebraic_KernelIdeal_ReferenceIdeal := by
  intro m ρ m' ρ' _ hagree
  refine ⟨fun c => Cert.SqDist.dist (Cert.KernelIdeal.Blocks.argA m c) (Cert.KernelIdeal.Blocks.argB m c),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Dist.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
